-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩
abbrev S1024x4096 : Shape := ⟨2, ![1024, 4096]⟩
abbrev S1x1024 : Shape := ⟨2, ![1, 1024]⟩
abbrev S256x1024 : Shape := ⟨2, ![256, 1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096x4096, .bf16⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1024x4096, .bf16⟩
  | .local _ .vmem, ⟨3, _⟩ => ⟨S1024x4096, .bf16⟩
  | .local _ .vmem, ⟨4, _⟩ => ⟨S1x4096, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x4096.size a
  hwx0_5 : ∀ i : grid0.Coords, EltTy.bits .f32 = 32 ∨ (Rect.block (s := S8192x4096) S256x1024.size (cc0_transform_5 i) (hinb0_5 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The function both programs compute, entry by entry. With x an 8192 × 4096 array, s a 4096 × 4096 array and
  g, h, b vectors of length 4096, the result is the 8192 × 4096 array

      out[n, o] = (∑ₖ (x[n, k] · g[k]) · s[o, k]) · h[o] + b[o],      k over the 4096 columns:

  row n of x scaled column by column by g, contracted against row o of s, the sum scaled by h[o] and shifted by b[o].
  Everything is read on the extended reals; no rearrangement of the sum is needed between the two programs, so
  the statement uses no finiteness of the inputs.
-/
import Idealize.ShloMosaic.PureOps.Ideal
import Idealize.ShloMosaic.Lib.ValueIdx
import Idealize.ShloMosaic.Lib.Pipeline.Value

noncomputable section

open scoped BigOperators
open Idealize.ShloMosaic Idealize.ShloMosaic.ValueIdx

namespace Cert.SignLinear

/-- One entry of the result: row `n` of `x`, scaled by `g`, against row `o` of `s`; then `· h[o] + b[o]`. -/
def entry (x : FVec Ideal ⟨2, ![8192, 4096]⟩ .f32) (s : FVec Ideal ⟨2, ![4096, 4096]⟩ .f32)
    (g h b : FVec Ideal ⟨1, ![4096]⟩ .f32) (n : Fin 8192) (o : Fin 4096) : EReal :=
  (∑ k : Fin 4096, (x (ix2 n k) * g (ix1 k)) * s (ix2 o k)) * h (ix1 o) + b (ix1 o)

/-- The whole result array. -/
def scaledSignProduct (x : FVec Ideal ⟨2, ![8192, 4096]⟩ .f32) (s : FVec Ideal ⟨2, ![4096, 4096]⟩ .f32)
    (g h b : FVec Ideal ⟨1, ![4096]⟩ .f32) : FVec Ideal ⟨2, ![8192, 4096]⟩ .f32 :=
  fun i => entry x s g h b (i 0) (i 1)

theorem scaledSignProduct_apply (x : FVec Ideal ⟨2, ![8192, 4096]⟩ .f32) (s : FVec Ideal ⟨2, ![4096, 4096]⟩ .f32)
    (g h b : FVec Ideal ⟨1, ![4096]⟩ .f32) (n : Fin 8192) (o : Fin 4096) :
    scaledSignProduct x s g h b (ix2 n o) = entry x s g h b n o := rfl

/-- A one-row array of 4096 columns broadcast over 256 rows, read at (p, k), is the row at column k. -/
theorem broadcastRow4096_apply {α : Type} (v : (⟨2, ![1, 4096]⟩ : Shape).Idx → α)
    (hb : (⟨2, ![1, 4096]⟩ : Shape).Broadcasts ⟨2, ![256, 4096]⟩) (p : Fin 256) (k : Fin 4096) :
    broadcastTo ⟨2, ![256, 4096]⟩ v hb (ix2 p k) = v (ix2 (0 : Fin 1) k) :=
  broadcastTo_apply v hb (ix2 p k) (ix2 (0 : Fin 1) k) fun a => match a with
    | ⟨0, _⟩ => by show (0 : Nat) = if (1 : Nat) = 1 then 0 else _; rw [if_pos rfl]
    | ⟨1, _⟩ => by show k.val = if (4096 : Nat) = 1 then 0 else _; rw [if_neg (by decide)]; rfl

/-- A one-row array of 1024 columns broadcast over 256 rows, read at (p, q), is the row at column q. -/
theorem broadcastRow1024_apply {α : Type} (v : (⟨2, ![1, 1024]⟩ : Shape).Idx → α)
    (hb : (⟨2, ![1, 1024]⟩ : Shape).Broadcasts ⟨2, ![256, 1024]⟩) (p : Fin 256) (q : Fin 1024) :
    broadcastTo ⟨2, ![256, 1024]⟩ v hb (ix2 p q) = v (ix2 (0 : Fin 1) q) :=
  broadcastTo_apply v hb (ix2 p q) (ix2 (0 : Fin 1) q) fun a => match a with
    | ⟨0, _⟩ => by show (0 : Nat) = if (1 : Nat) = 1 then 0 else _; rw [if_pos rfl]
    | ⟨1, _⟩ => by show q.val = if (1024 : Nat) = 1 then 0 else _; rw [if_neg (by decide)]; rfl

/-- A vector of length 4096 laid out as one row, read at (0, k), is the vector at k. -/
theorem rowOfVector_apply {α : Type} (v : (⟨1, ![4096]⟩ : Shape).Idx → α)
    (hc : (⟨1, ![4096]⟩ : Shape).ShapeCasts ⟨2, ![1, 4096]⟩) (z : Fin 1) (k : Fin 4096) :
    shapeCast ⟨2, ![1, 4096]⟩ v hc (ix2 z k) = v (ix1 k) :=
  shapeCast_apply v hc (ix2 z k) (ix1 k) (by
    rw [Shape.rowMajor_val_two, Shape.rowMajor_val_one]
    show k.val = z.val * 4096 + k.val
    have := z.isLt; omega)

end Cert.SignLinear

end
-- ==== Proof.Payload.lean ====
/-
  The kernel body at one grid point, read entry by entry. From its five loaded blocks — 256 rows of x, one row of
  4096 entries of g, 1024 rows of s, and one row of 1024 entries each of h and b — the body stores, at (p, q),

      (∑ₖ (xb[p, k] · gb[0, k]) · sb[q, k]) · hb[0, q] + bb[0, q].

  The change of float format before the product is the identity on the extended reals; the matrix product into a
  zero accumulator contracts the second axis of both operands, so its entry (p, q) is the plain sum over the 4096
  columns; the two row broadcasts read the row at the entry's column.
-/
import proofs.«147142_j15290083574248_1_alg».proof.Proof.Gen.KernelIdeal.Skeleton
import proofs.«147142_j15290083574248_1_alg».proof.Proof.Spec
import Idealize.ShloMosaic.PureOps.Ideal.Laws

noncomputable section

open scoped BigOperators
open Idealize.ShloMosaic Idealize.ShloMosaic.ValueIdx

namespace Cert.SignLinear.Block

open Cert.KernelIdeal Cert.KernelIdeal.Gen

/-- The product's left operand keeps the output's row on its first axis. -/
theorem lhs_axis0 (j : S256x1024.Idx) (c : dot_S256x4096_S1024x4096_S256x1024_1_1_0_0_n_n.contr.Idx) :
    (dot_S256x4096_S1024x4096_S256x1024_1_1_0_0_n_n.lhsIdx j c 0).val = (j 0).val := by
  unfold DotDims.lhsIdx
  rw [dif_neg (show ¬(0 : Fin S256x4096.rank) ∈ dot_S256x4096_S1024x4096_S256x1024_1_1_0_0_n_n.lhsBatch by decide), dif_pos (show (0 : Fin S256x4096.rank) ∈ dot_S256x4096_S1024x4096_S256x1024_1_1_0_0_n_n.lhsNonContracting by decide)]
  rfl
/-- and carries the summation index on its second. -/
theorem lhs_axis1 (j : S256x1024.Idx) (c : dot_S256x4096_S1024x4096_S256x1024_1_1_0_0_n_n.contr.Idx) :
    (dot_S256x4096_S1024x4096_S256x1024_1_1_0_0_n_n.lhsIdx j c 1).val = (c ⟨0, by decide⟩).val :=
  dot_S256x4096_S1024x4096_S256x1024_1_1_0_0_n_n.lhsIdx_val_of_single rfl j c
/-- The right operand puts the output's column on its first axis -/
theorem rhs_axis0 (j : S256x1024.Idx) (c : dot_S256x4096_S1024x4096_S256x1024_1_1_0_0_n_n.contr.Idx) :
    (dot_S256x4096_S1024x4096_S256x1024_1_1_0_0_n_n.rhsIdx j c 0).val = (j 1).val := by
  unfold DotDims.rhsIdx
  rw [dif_neg (show ¬(0 : Fin S1024x4096.rank) ∈ dot_S256x4096_S1024x4096_S256x1024_1_1_0_0_n_n.rhsBatch by decide), dif_pos (show (0 : Fin S1024x4096.rank) ∈ dot_S256x4096_S1024x4096_S256x1024_1_1_0_0_n_n.rhsNonContracting by decide)]
  rfl
/-- and the summation index on its second. -/
theorem rhs_axis1 (j : S256x1024.Idx) (c : dot_S256x4096_S1024x4096_S256x1024_1_1_0_0_n_n.contr.Idx) :
    (dot_S256x4096_S1024x4096_S256x1024_1_1_0_0_n_n.rhsIdx j c 1).val = (c ⟨0, by decide⟩).val :=
  dot_S256x4096_S1024x4096_S256x1024_1_1_0_0_n_n.rhsIdx_val_of_single rfl j c

/-- The block product into a zero accumulator: entry (p, q) is row p of the left operand against row q of the right. -/
theorem blockProduct_apply (l : FVec Ideal S256x4096 .bf16) (r : FVec Ideal S1024x4096 .bf16) (p : Fin 256) (q : Fin 1024) :
    matmul dot_S256x4096_S1024x4096_S256x1024_1_1_0_0_n_n none l r (constant (F := Ideal) S256x1024 .f32 0x00000000#32) (ix2 p q)
      = ∑ k : Fin 4096, l (ix2 p k) * r (ix2 q k) := by
  show FloatOps.matmul dot_S256x4096_S1024x4096_S256x1024_1_1_0_0_n_n none l r (constant S256x1024 .f32 0x00000000#32) (ix2 p q) = _
  rw [Ideal.matmul_constant_zero_apply, ← Equiv.sum_comp (contrEquiv1 dot_S256x4096_S1024x4096_S256x1024_1_1_0_0_n_n 4096 rfl rfl).symm]
  refine Finset.sum_congr rfl fun k _ => ?_
  have hk := contrEquiv1_symm_val dot_S256x4096_S1024x4096_S256x1024_1_1_0_0_n_n 4096 rfl rfl k
  have el : dot_S256x4096_S1024x4096_S256x1024_1_1_0_0_n_n.lhsIdx (ix2 p q) ((contrEquiv1 dot_S256x4096_S1024x4096_S256x1024_1_1_0_0_n_n 4096 rfl rfl).symm k) = ix2 p k := funext fun a => Fin.ext (by
    match a with
    | ⟨0, _⟩ => exact lhs_axis0 _ _
    | ⟨1, _⟩ => exact (lhs_axis1 _ _).trans hk)
  have er : dot_S256x4096_S1024x4096_S256x1024_1_1_0_0_n_n.rhsIdx (ix2 p q) ((contrEquiv1 dot_S256x4096_S1024x4096_S256x1024_1_1_0_0_n_n 4096 rfl rfl).symm k) = ix2 q k := funext fun a => Fin.ext (by
    match a with
    | ⟨0, _⟩ => exact rhs_axis0 _ _
    | ⟨1, _⟩ => exact (rhs_axis1 _ _).trans hk)
  rw [el, er]

/-- What the body stores at (p, q), from its loaded blocks. -/
theorem stored_apply (xb : FVec Ideal S256x4096 .f32) (gb : FVec Ideal S1x4096 .f32) (sb : FVec Ideal S1024x4096 .bf16)
    (hb bb : FVec Ideal S1x1024 .f32) (p : Fin 256) (q : Fin 1024) :
    k0_pay1 (F := Ideal) xb gb sb hb bb (ix2 p q)
      = (∑ k : Fin 4096, (xb (ix2 p k) * gb (ix2 (0 : Fin 1) k)) * sb (ix2 q k)) * hb (ix2 (0 : Fin 1) q) + bb (ix2 (0 : Fin 1) q) := by
  unfold k0_pay1
  simp only [shapeCast_self]
  rw [addf_apply, mulf_apply, blockProduct_apply, broadcastRow1024_apply, broadcastRow1024_apply]
  refine congrArg (fun z => z * hb (ix2 (0 : Fin 1) q) + bb (ix2 (0 : Fin 1) q)) (Finset.sum_congr rfl fun k _ => ?_)
  rw [truncf_apply, mulf_apply, broadcastRow4096_apply]

/-- When the five blocks are the rows 256·R … of x, all of g, the rows 1024·C … of s and the columns 1024·C … of h and b,
    what the body stores at j is the specification at the entry of the array that block index (R, C) puts j on. -/
theorem stored_eq_spec (x : FVec Ideal S8192x4096 .f32) (s : FVec Ideal S4096x4096 .f32) (g h b : FVec Ideal S4096 .f32)
    (xb : FVec Ideal S256x4096 .f32) (gb : FVec Ideal S1x4096 .f32) (sb : FVec Ideal S1024x4096 .bf16)
    (hb bb : FVec Ideal S1x1024 .f32) (R C : Nat) (hR : R < 32) (hC : C < 4)
    (hx : ∀ (p : Fin 256) (k : Fin 4096), xb (ix2 p k) = x (ix2 (⟨R * 256 + p.val, by omega⟩ : Fin 8192) k))
    (hg : ∀ k : Fin 4096, gb (ix2 (0 : Fin 1) k) = g (ix1 k))
    (hs : ∀ (q : Fin 1024) (k : Fin 4096), sb (ix2 q k) = s (ix2 (⟨C * 1024 + q.val, by omega⟩ : Fin 4096) k))
    (hh : ∀ q : Fin 1024, hb (ix2 (0 : Fin 1) q) = h (ix1 (⟨C * 1024 + q.val, by omega⟩ : Fin 4096)))
    (hbb : ∀ q : Fin 1024, bb (ix2 (0 : Fin 1) q) = b (ix1 (⟨C * 1024 + q.val, by omega⟩ : Fin 4096)))
    (j : S256x1024.Idx) (i : S8192x4096.Idx)
    (hi0 : (i 0).val = R * 256 + (j 0).val) (hi1 : (i 1).val = C * 1024 + (j 1).val) :
    k0_pay1 (F := Ideal) xb gb sb hb bb j = scaledSignProduct x s g h b i := by
  obtain ⟨p, q, rfl⟩ : ∃ (p : Fin 256) (q : Fin 1024), j = ix2 p q := ⟨j 0, j 1, eq_ix2 j⟩
  have bp : R * 256 + p.val < 8192 := by have := p.isLt; omega
  have bq : C * 1024 + q.val < 4096 := by have := q.isLt; omega
  obtain ⟨n, o, rfl⟩ : ∃ (n : Fin 8192) (o : Fin 4096), i = ix2 n o := ⟨i 0, i 1, eq_ix2 i⟩
  obtain rfl : n = ⟨R * 256 + p.val, bp⟩ := Fin.ext hi0
  obtain rfl : o = ⟨C * 1024 + q.val, bq⟩ := Fin.ext hi1
  rw [stored_apply, scaledSignProduct_apply]
  unfold entry
  simp only [hx, hg, hs, hh, hbb]

end Cert.SignLinear.Block

end
-- ==== Proof.KernelValue.lean ====
/-
  The kernel's result array is the specification. The grid has 4 × 32 points; at point t the output block has
  block index (R, C) = (row block, column block), R < 32 and C < 4, and covers rows 256·R … 256·R + 255 and columns
  1024·C … 1024·C + 1023 of the result. At that point the body reads rows 256·R … of x, rows 1024·C … of s (stored
  in a narrower float format before the call, which changes nothing on the extended reals), the whole of g, and
  columns 1024·C … of h and b (each laid out as one row before the call). So entry (p, q) of the stored block is
  entry (256·R + p, 1024·C + q) of the specification; the 128 blocks tile the array, hence the array ends holding
  the specification everywhere.
-/
import proofs.«147142_j15290083574248_1_alg».proof.Proof.Gen.KernelIdeal.Value
import proofs.«147142_j15290083574248_1_alg».proof.Proof.Payload
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.SignLinear.Kernel

open Cert.KernelIdeal Cert.KernelIdeal.Gen Cert.KernelIdeal.Value

variable (m : (ℓ : Loc nD τ sig) → Buf (Elt Ideal) ℓ) (ρ : Dev nD → PrngReg)

theorem zeroOffsets : (![0, 0] : Fin 2 → Nat) = fun _ => 0 := funext fun a => by fin_cases a <;> rfl

/-! ## The arrays the region finds -/

/-- The second operand of the call is s itself: the change of float format is the identity on the extended reals. -/
theorem V_sign (c : Dev nD) :
    (V m c main_v0 : S4096x4096.Idx → EReal) = (m ((c : Thread nD τ).loc main_arg1) : S4096x4096.Idx → EReal) := by
  dsimp only [Gen.V, Gen.hostOps0]; after_results; rfl

/-- The third, fourth and fifth operands are g, h and b laid out as one row of 4096 entries. -/
theorem V_g (c : Dev nD) :
    (V m c main_v1 : S1x4096.Idx → EReal) = shapeCast S1x4096 (m ((c : Thread nD τ).loc main_arg2) : S4096.Idx → EReal) Facts₀.shapeCasts_S4096_S1x4096 := by
  dsimp only [Gen.V, Gen.hostOps0]; after_results; rfl
theorem V_h (c : Dev nD) :
    (V m c main_v2 : S1x4096.Idx → EReal) = shapeCast S1x4096 (m ((c : Thread nD τ).loc main_arg3) : S4096.Idx → EReal) Facts₀.shapeCasts_S4096_S1x4096 := by
  dsimp only [Gen.V, Gen.hostOps0]; after_results; rfl
theorem V_b (c : Dev nD) :
    (V m c main_v3 : S1x4096.Idx → EReal) = shapeCast S1x4096 (m ((c : Thread nD τ).loc main_arg4) : S4096.Idx → EReal) Facts₀.shapeCasts_S4096_S1x4096 := by
  dsimp only [Gen.V, Gen.hostOps0]; after_results; rfl

/-! ## The block indices over the grid -/

/-- The printed index maps, decided over the 128 points: x moves with the output's row block, s, h and b with its
    column block, g stays; the output's block index is (R, C) with R < 32, C < 4. -/
theorem idx_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) < 32 ∧ win0_5.index t (1 : Fin 2) < 4 :=
  (by decide +kernel : ∀ t : Fin grid0.N, _)

/-- Every block index (R, C) is some point's. -/
theorem idx_onto : ∀ (R : Fin 32) (C : Fin 4), ∃ t : Fin cfg0.N, win0_5.index t = ![R.val, C.val] :=
  (by decide +kernel : ∀ (R : Fin 32) (C : Fin 4), ∃ t : Fin grid0.N, win0_5.index t = ![R.val, C.val])

/-! ## The input blocks at a point, as entries of the arguments -/

/-- The block of x: row p of the block is row 256·R + p of x. -/
theorem xblk_apply (c : Dev nD) (t : Fin cfg0.N) (p : Fin 256) (k : Fin 4096) (n : Fin 8192)
    (hn : n.val = win0_5.index t (0 : Fin 2) * 256 + p.val) :
    (iblk m c 0 t : FVec Ideal S256x4096 .f32) (ix2 p k)
      = (m ((c : Thread nD τ).loc main_arg0) : FVec Ideal S8192x4096 .f32) (ix2 n k) := by
  obtain ⟨e00, e01, -⟩ := idx_facts t
  unfold iblk
  rw [View.read_apply]
  show V m c main_arg0 _ = _
  rw [V_main_arg0 m c]
  refine congrArg _ (funext fun a => Fin.ext ?_)
  match a with
  | ⟨0, _⟩ => show win0_0.index t (0 : Fin 2) * 256 + 1 * p.val = n.val; omega
  | ⟨1, _⟩ => show win0_0.index t (1 : Fin 2) * 4096 + 1 * k.val = k.val; omega

/-- The block of s: row q of the block is row 1024·C + q of s. -/
theorem sblk_apply (c : Dev nD) (t : Fin cfg0.N) (q : Fin 1024) (k : Fin 4096) (o : Fin 4096)
    (ho : o.val = win0_5.index t (1 : Fin 2) * 1024 + q.val) :
    (iblk m c 1 t : FVec Ideal S1024x4096 .bf16) (ix2 q k)
      = (m ((c : Thread nD τ).loc main_arg1) : FVec Ideal S4096x4096 .f32) (ix2 o k) := by
  obtain ⟨-, -, e10, e11, -⟩ := idx_facts t
  unfold iblk
  rw [View.read_apply]
  show (V m c main_v0 : S4096x4096.Idx → EReal) _ = _
  rw [V_sign m c]
  refine congrArg _ (funext fun a => Fin.ext ?_)
  match a with
  | ⟨0, _⟩ => show win0_1.index t (0 : Fin 2) * 1024 + 1 * q.val = o.val; omega
  | ⟨1, _⟩ => show win0_1.index t (1 : Fin 2) * 4096 + 1 * k.val = k.val; omega

/-- The block of g is all of g. -/
theorem gblk_apply (c : Dev nD) (t : Fin cfg0.N) (k : Fin 4096) :
    (iblk m c 2 t : FVec Ideal S1x4096 .f32) (ix2 (0 : Fin 1) k)
      = (m ((c : Thread nD τ).loc main_arg2) : FVec Ideal S4096 .f32) (ix1 k) := by
  obtain ⟨-, -, -, -, e20, e21, -⟩ := idx_facts t
  unfold iblk
  rw [View.read_apply]
  show (V m c main_v1 : S1x4096.Idx → EReal) _ = _
  rw [V_g m c]
  refine (congrArg _ (funext fun a => Fin.ext ?_)).trans (rowOfVector_apply _ _ (0 : Fin 1) k)
  match a with
  | ⟨0, _⟩ => show win0_2.index t (0 : Fin 2) * 1 + 1 * 0 = 0; omega
  | ⟨1, _⟩ => show win0_2.index t (1 : Fin 2) * 4096 + 1 * k.val = k.val; omega

/-- The block of h: column q of the block is entry 1024·C + q of h. -/
theorem hblk_apply (c : Dev nD) (t : Fin cfg0.N) (q : Fin 1024) (o : Fin 4096)
    (ho : o.val = win0_5.index t (1 : Fin 2) * 1024 + q.val) :
    (iblk m c 3 t : FVec Ideal S1x1024 .f32) (ix2 (0 : Fin 1) q)
      = (m ((c : Thread nD τ).loc main_arg3) : FVec Ideal S4096 .f32) (ix1 o) := by
  obtain ⟨-, -, -, -, -, -, e30, e31, -⟩ := idx_facts t
  unfold iblk
  rw [View.read_apply]
  show (V m c main_v2 : S1x4096.Idx → EReal) _ = _
  rw [V_h m c]
  refine (congrArg _ (funext fun a => Fin.ext ?_)).trans (rowOfVector_apply _ _ (0 : Fin 1) o)
  match a with
  | ⟨0, _⟩ => show win0_3.index t (0 : Fin 2) * 1 + 1 * 0 = 0; omega
  | ⟨1, _⟩ => show win0_3.index t (1 : Fin 2) * 1024 + 1 * q.val = o.val; omega

/-- The block of b: column q of the block is entry 1024·C + q of b. -/
theorem bblk_apply (c : Dev nD) (t : Fin cfg0.N) (q : Fin 1024) (o : Fin 4096)
    (ho : o.val = win0_5.index t (1 : Fin 2) * 1024 + q.val) :
    (iblk m c 4 t : FVec Ideal S1x1024 .f32) (ix2 (0 : Fin 1) q)
      = (m ((c : Thread nD τ).loc main_arg4) : FVec Ideal S4096 .f32) (ix1 o) := by
  obtain ⟨-, -, -, -, -, -, -, -, e40, e41, -⟩ := idx_facts t
  unfold iblk
  rw [View.read_apply]
  show (V m c main_v3 : S1x4096.Idx → EReal) _ = _
  rw [V_b m c]
  refine (congrArg _ (funext fun a => Fin.ext ?_)).trans (rowOfVector_apply _ _ (0 : Fin 1) o)
  match a with
  | ⟨0, _⟩ => show win0_4.index t (0 : Fin 2) * 1 + 1 * 0 = 0; omega
  | ⟨1, _⟩ => show win0_4.index t (1 : Fin 2) * 1024 + 1 * q.val = o.val; omega

/-! ## What a point writes back, the cover, the array after the run -/

/-- The specification of the five arguments as launched. -/
abbrev result (c : Dev nD) : Buf (Elt Ideal) ((c : Thread nD τ).loc main_v4) :=
  scaledSignProduct (m ((c : Thread nD τ).loc main_arg0)) (m ((c : Thread nD τ).loc main_arg1))
    (m ((c : Thread nD τ).loc main_arg2)) (m ((c : Thread nD τ).loc main_arg3)) (m ((c : Thread nD τ).loc main_arg4))

/-- Point t writes back block t of the specification. -/
theorem flushed_eq (c : Dev nD) (t : Fin cfg0.N) :
    (dats m 0 c).flushed 5 t = ((cfg0.win 5).blk t).view.read (Elt Ideal) (result m c) := by
  rw [Value.flushed5 m c t]
  unfold out0_5
  rw [View.canon_unit_zero zeroOffsets]
  simp only [View.ld_unit_zero (S := S256x4096) zeroOffsets, View.ld_unit_zero (S := S1x4096) zeroOffsets,
    View.ld_unit_zero (S := S1024x4096) zeroOffsets, View.ld_unit_zero (S := S1x1024) zeroOffsets]
  obtain ⟨-, -, -, -, -, -, -, -, -, -, hR, hC⟩ := idx_facts t
  funext j
  rw [View.read_apply]
  exact Block.stored_eq_spec (m ((c : Thread nD τ).loc main_arg0)) (m ((c : Thread nD τ).loc main_arg1))
    (m ((c : Thread nD τ).loc main_arg2)) (m ((c : Thread nD τ).loc main_arg3)) (m ((c : Thread nD τ).loc main_arg4))
    (iblk m c 0 t) (iblk m c 2 t) (iblk m c 1 t) (iblk m c 3 t) (iblk m c 4 t)
    (win0_5.index t (0 : Fin 2)) (win0_5.index t (1 : Fin 2)) hR hC
    (fun p k => xblk_apply m c t p k _ rfl) (fun k => gblk_apply m c t k) (fun q k => sblk_apply m c t q k _ rfl)
    (fun q => hblk_apply m c t q _ rfl) (fun q => bblk_apply m c t q _ rfl)
    ((cfg0.win 5).xinj (grid0.coords t) j) (((cfg0.win 5).blk t).view.emb j)
    (show win0_5.index t (0 : Fin 2) * 256 + 1 * (j 0).val = win0_5.index t (0 : Fin 2) * 256 + (j 0).val by omega)
    (show win0_5.index t (1 : Fin 2) * 1024 + 1 * (j 1).val = win0_5.index t (1 : Fin 2) * 1024 + (j 1).val by omega)

/-- An index of the array is in point t's block iff each coordinate is in the block's range on its axis. -/
theorem mem_blk (t : Fin cfg0.N) (i : S8192x4096.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v4).slice (win0_5.rect t)).set ↔ _
  rw [View.set_slice_whole, Rect.mem_set_unit]
  exact Iff.rfl

/-- The blocks tile the array: entry (n, o) lies in the block of index (n / 256, o / 1024). -/
theorem covered (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 256, by omega⟩ ⟨(i 1).val / 1024, by omega⟩
  have q0 : win0_5.index t (0 : Fin 2) = (i 0).val / 256 := congrFun ht 0
  have q1 : win0_5.index t (1 : Fin 2) = (i 1).val / 1024 := congrFun ht 1
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

/-- The result array after the run is the specification of the arguments. -/
theorem final (c : Dev nD) : (dats m 0 c).arrAt 5 cfg0.N = result m c :=
  (dats m 0 c).arrAt_eq_of_cover 5 (result m c) (fun t _ => flushed_eq m c t) covered

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.SignLinear.Kernel

end
-- ==== Proof.RefValue.lean ====
/-
  The reference's result is the specification. Its ten host operations, read one at a time at an index (n, o):
  the two broadcasts of g put g[k] at (n, k); the multiply gives x[n, k] · g[k]; the dot_general contracts the
  second axis of both operands, so its entry (n, o) is ∑ₖ (x[n, k] · g[k]) · s[o, k]; the broadcasts of h and b
  put h[o] and b[o] at (n, o); the last multiply and add give (∑ₖ …) · h[o] + b[o].
-/
import proofs.«147142_j15290083574248_1_alg».proof.Proof.Gen.ReferenceIdeal.Read
import proofs.«147142_j15290083574248_1_alg».proof.Proof.Spec

noncomputable section

open scoped BigOperators
open Idealize.ShloMosaic Idealize.ShloMosaic.ValueIdx

namespace Cert.SignLinear.Ref

open Cert.ReferenceIdeal Cert.ReferenceIdeal.Read

/-- The left operand of the contraction at output (n, o) and summand k is read at (n, k). -/
theorem lidx_eq (n : Fin 8192) (o k : Fin 4096) : lidx_main_v3 (ix2 n o) k = ix2 n k :=
  funext fun a => match a with | ⟨0, _⟩ => rfl | ⟨1, _⟩ => rfl

/-- The right operand is read at (o, k): the contraction runs over the second axis of both. -/
theorem ridx_eq (n : Fin 8192) (o k : Fin 4096) : ridx_main_v3 (ix2 n o) k = ix2 o k :=
  funext fun a => match a with | ⟨0, _⟩ => rfl | ⟨1, _⟩ => rfl

/-- A vector broadcast to one row and then over all rows is read, at (n, k), at k. -/
theorem gidx_eq (n : Fin 8192) (k : Fin 4096) : idx_main_v0 (idx_main_v1 (ix2 n k)) = ix1 k :=
  funext fun a => match a with | ⟨0, _⟩ => rfl
theorem hidx_eq (n : Fin 8192) (o : Fin 4096) : idx_main_v4 (idx_main_v5 (ix2 n o)) = ix1 o :=
  funext fun a => match a with | ⟨0, _⟩ => rfl
theorem bidx_eq (n : Fin 8192) (o : Fin 4096) : idx_main_v7 (idx_main_v8 (ix2 n o)) = ix1 o :=
  funext fun a => match a with | ⟨0, _⟩ => rfl

/-- The reference's last stage is the specification of its five arguments. -/
theorem result_eq (x0 : FVec Ideal S8192x4096 .f32) (x1 : FVec Ideal S4096x4096 .f32) (x2 x3 x4 : FVec Ideal S4096 .f32) :
    val_main_v9 (F := Ideal) x0 x1 x2 x3 x4 = scaledSignProduct x0 x1 x2 x3 x4 := by
  funext i
  obtain ⟨n, o, rfl⟩ : ∃ (n : Fin 8192) (o : Fin 4096), i = ix2 n o := ⟨i 0, i 1, eq_ix2 i⟩
  rw [scaledSignProduct_apply, val_main_v9_apply, val_main_v6_apply, val_main_v3_apply, val_main_v5_apply, val_main_v4_apply,
    val_main_v8_apply, val_main_v7_apply, hidx_eq, bidx_eq]
  unfold entry
  simp only [lidx_eq, ridx_eq, val_main_v2_apply, val_main_v1_apply, val_main_v0_apply, gidx_eq, Ideal.mulf_def, Ideal.addf_def]

end Cert.SignLinear.Ref

end
-- ==== Proof.lean ====
/-
  A linear layer with a sign matrix: out = ((x · g) sᵀ) · h + b, for x of 8192 rows and 4096 columns, s a
  4096 × 4096 matrix, and g, h, b vectors of length 4096 scaling the columns of x, scaling the columns of the
  product, and shifting them. Entry by entry,

      out[n, o] = (∑ₖ (x[n, k] · g[k]) · s[o, k]) · h[o] + b[o].

  The kernel computes it block by block (256 rows by 1024 columns per grid point, the whole contraction axis in
  one block), storing s in a narrower float format first; the reference computes it with one whole-array
  contraction. On the extended reals a change of float format is the identity, a block product into a zero
  accumulator is the plain sum over the contraction axis, and the reference's contraction is the same sum, so
  both programs end with the array above: the same sum, term for term, with no rearrangement and hence no use
  of the inputs' finiteness. Nothing was rewritten in the idealized kernel, so it is the kernel's own text.
-/
import proofs.«147142_j15290083574248_1_alg».proof.Defs
import proofs.«147142_j15290083574248_1_alg».proof.Proof.Gen.Kernel
import proofs.«147142_j15290083574248_1_alg».proof.Proof.Gen.Kernel.Skeleton
import proofs.«147142_j15290083574248_1_alg».proof.Proof.Gen.Kernel.Launch
import proofs.«147142_j15290083574248_1_alg».proof.Proof.Gen.Kernel.Points
import proofs.«147142_j15290083574248_1_alg».proof.Proof.Gen.Kernel.Frame
import proofs.«147142_j15290083574248_1_alg».proof.Proof.Gen.KernelIdeal
import proofs.«147142_j15290083574248_1_alg».proof.Proof.Gen.KernelIdeal.Skeleton
import proofs.«147142_j15290083574248_1_alg».proof.Proof.Gen.KernelIdeal.Launch
import proofs.«147142_j15290083574248_1_alg».proof.Proof.Gen.KernelIdeal.Points
import proofs.«147142_j15290083574248_1_alg».proof.Proof.Gen.KernelIdeal.Frame
import proofs.«147142_j15290083574248_1_alg».proof.Proof.Gen.ReferenceIdeal
import proofs.«147142_j15290083574248_1_alg».proof.Proof.Gen.Pre_finite_inputs
import proofs.«147142_j15290083574248_1_alg».proof.Proof.Gen.KernelIdeal.Value
import proofs.«147142_j15290083574248_1_alg».proof.Proof.Gen.ReferenceIdeal.Run
import proofs.«147142_j15290083574248_1_alg».proof.Proof.Gen.ReferenceIdeal.Read
import proofs.«147142_j15290083574248_1_alg».proof.Proof.KernelValue
import proofs.«147142_j15290083574248_1_alg».proof.Proof.RefValue
import Idealize.ShloMosaic.Adequacy
import Idealize.ShloMosaic.Init

noncomputable section

namespace Cert.Proof

open Idealize.ShloMosaic Idealize.SL.Sem

/-- Both programs run and leave their arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's both end at
    the specification of those arguments. -/
theorem algebraic : Cert.algebraic_KernelIdeal_ReferenceIdeal := by
  intro m ρ m' ρ' _ hagree
  refine ⟨fun c => Cert.SignLinear.Kernel.result m c, Cert.SignLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.SignLinear.Ref.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
